-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x16384 : Shape := ⟨2, ![2048, 16384]⟩
abbrev S4096x16384 : Shape := ⟨2, ![4096, 16384]⟩
abbrev S16384x4096 : Shape := ⟨2, ![16384, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S16384x4096 : S_.BroadcastsInDim S16384x4096 (![] : Fin 0 → Fin S16384x4096.rank)
  reducesTo_S16384x4096_S_d0_1 : S16384x4096.ReducesTo [0, 1] S_

variable [Facts]

def fn_part2 {F : FTy → Type} [FloatOps F] (main_arg7 : FVec F S16384x4096 .f32) (main_arg8 : FVec F S4096x16384 .f32) (main_arg9 : FVec F S4096x16384 .f32) (main_v33 : IVec S_ 1) : IVec S_ 1 :=
  let main_v34 : FVec F S16384x4096 .f32 := Host.absf main_arg7
  let main_cst_12 : FVec F S_ .f32 := constant S_ .f32 0x7F800000#32
  let main_v35 : FVec F S16384x4096 .f32 := broadcastInDim S16384x4096 ![] bcast_S_S16384x4096 main_cst_12
  let main_v36 : IVec S16384x4096 1 := cmpf .olt main_v34 main_v35
  let main_c_13 : IVec S_ 1 := constantI S_ 1 1#1
  let main_v37 : IVec S_ 1 := (fun x v => Host.reduce IntOp.andi x v reducesTo_S16384x4096_S_d0_1 h_S_) main_v36 main_c_13
  let main_v38 : IVec S_ 1 := andi main_v33 main_v37
  let main_v39 : FVec F S4096x16384 .f32 := Host.absf main_arg8
  let main_cst_14 : FVec F S_ .f32 := constant S_ .f32 0x7F800000#32
  let main_v40 : FVec F S4096x16384 .f32 := broadcastInDim S4096x16384 ![] bcast_S_S4096x16384 main_cst_14
  let main_v41 : IVec S4096x16384 1 := cmpf .olt main_v39 main_v40
  let main_c_15 : IVec S_ 1 := constantI S_ 1 1#1
  let main_v42 : IVec S_ 1 := (fun x v => Host.reduce IntOp.andi x v reducesTo_S4096x16384_S_d0_1 h_S_) main_v41 main_c_15
  let main_v43 : IVec S_ 1 := andi main_v38 main_v42
  let main_v44 : FVec F S4096x16384 .f32 := Host.absf main_arg9
  let main_cst_16 : FVec F S_ .f32 := constant S_ .f32 0x7F800000#32
  let main_v45 : FVec F S4096x16384 .f32 := broadcastInDim S4096x16384 ![] bcast_S_S4096x16384 main_cst_16
  let main_v46 : IVec S4096x16384 1 := cmpf .olt main_v44 main_v45
  let main_c_17 : IVec S_ 1 := constantI S_ 1 1#1
  let main_v47 : IVec S_ 1 := (fun x v => Host.reduce IntOp.andi x v reducesTo_S4096x16384_S_d0_1 h_S_) main_v46 main_c_17
  let main_v48 : IVec S_ 1 := andi main_v43 main_v47
  main_v48

def fn_part1 {F : FTy → Type} [FloatOps F] (main_arg4 : FVec F S2048x16384 .f32) (main_arg5 : FVec F S2048x16384 .f32) (main_arg6 : FVec F S4096x16384 .f32) (main_arg7 : FVec F S16384x4096 .f32) (main_arg8 : FVec F S4096x16384 .f32) (main_arg9 : FVec F S4096x16384 .f32) (main_v13 : IVec S_ 1) (main_v16 : IVec S2048x16384 1) : IVec S_ 1 :=
  let main_c_5 : IVec S_ 1 := constantI S_ 1 1#1
  let main_v17 : IVec S_ 1 := (fun x v => Host.reduce IntOp.andi x v reducesTo_S2048x16384_S_d0_1 h_S_) main_v16 main_c_5
  let main_v18 : IVec S_ 1 := andi main_v13 main_v17
  let main_v19 : FVec F S2048x16384 .f32 := Host.absf main_arg4
  let main_cst_6 : FVec F S_ .f32 := constant S_ .f32 0x7F800000#32
  let main_v20 : FVec F S2048x16384 .f32 := broadcastInDim S2048x16384 ![] bcast_S_S2048x16384 main_cst_6
  let main_v21 : IVec S2048x16384 1 := cmpf .olt main_v19 main_v20
  let main_c_7 : IVec S_ 1 := constantI S_ 1 1#1
  let main_v22 : IVec S_ 1 := (fun x v => Host.reduce IntOp.andi x v reducesTo_S2048x16384_S_d0_1 h_S_) main_v21 main_c_7
  let main_v23 : IVec S_ 1 := andi main_v18 main_v22
  let main_v24 : FVec F S2048x16384 .f32 := Host.absf main_arg5
  let main_cst_8 : FVec F S_ .f32 := constant S_ .f32 0x7F800000#32
  let main_v25 : FVec F S2048x16384 .f32 := broadcastInDim S2048x16384 ![] bcast_S_S2048x16384 main_cst_8
  let main_v26 : IVec S2048x16384 1 := cmpf .olt main_v24 main_v25
  let main_c_9 : IVec S_ 1 := constantI S_ 1 1#1
  let main_v27 : IVec S_ 1 := (fun x v => Host.reduce IntOp.andi x v reducesTo_S2048x16384_S_d0_1 h_S_) main_v26 main_c_9
  let main_v28 : IVec S_ 1 := andi main_v23 main_v27
  let main_v29 : FVec F S4096x16384 .f32 := Host.absf main_arg6
  let main_cst_10 : FVec F S_ .f32 := constant S_ .f32 0x7F800000#32
  let main_v30 : FVec F S4096x16384 .f32 := broadcastInDim S4096x16384 ![] bcast_S_S4096x16384 main_cst_10
  let main_v31 : IVec S4096x16384 1 := cmpf .olt main_v29 main_v30
  let main_c_11 : IVec S_ 1 := constantI S_ 1 1#1
  let main_v32 : IVec S_ 1 := (fun x v => Host.reduce IntOp.andi x v reducesTo_S4096x16384_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x4096 .f32) (main_arg1 : FVec F S2048x4096 .f32) (main_arg2 : FVec F S2048x16384 .f32) (main_arg3 : FVec F S2048x16384 .f32) (main_arg4 : FVec F S2048x16384 .f32) (main_arg5 : FVec F S2048x16384 .f32) (main_arg6 : FVec F S4096x16384 .f32) (main_arg7 : FVec F S16384x4096 .f32) (main_arg8 : FVec F S4096x16384 .f32) (main_arg9 : FVec F S4096x16384 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x16384 .f32 := Host.absf main_arg2
  let main_cst_2 : FVec F S_ .f32 := constant S_ .f32 0x7F800000#32
  let main_v10 : FVec F S2048x16384 .f32 := broadcastInDim S2048x16384 ![] bcast_S_S2048x16384 main_cst_2
  let main_v11 : IVec S2048x16384 1 := cmpf .olt main_v9 main_v10
  let main_c_3 : IVec S_ 1 := constantI S_ 1 1#1
  let main_v12 : IVec S_ 1 := (fun x v => Host.reduce IntOp.andi x v reducesTo_S2048x16384_S_d0_1 h_S_) main_v11 main_c_3
  let main_v13 : IVec S_ 1 := andi main_v8 main_v12
  let main_v14 : FVec F S2048x16384 .f32 := Host.absf main_arg3
  let main_cst_4 : FVec F S_ .f32 := constant S_ .f32 0x7F800000#32
  let main_v15 : FVec F S2048x16384 .f32 := broadcastInDim S2048x16384 ![] bcast_S_S2048x16384 main_cst_4
  let main_v16 : IVec S2048x16384 1 := cmpf .olt main_v14 main_v15
  fn_part1 (F := F) main_arg4 main_arg5 main_arg6 main_arg7 main_arg8 main_arg9 main_v13 main_v16
-- ==== Kernel.lean ====
abbrev S2048x4096 : Shape := ⟨2, ![2048, 4096]⟩
abbrev S2048x16384 : Shape := ⟨2, ![2048, 16384]⟩
abbrev S4096x16384 : Shape := ⟨2, ![4096, 16384]⟩
abbrev S16384x4096 : Shape := ⟨2, ![16384, 4096]⟩
abbrev S256x4096 : Shape := ⟨2, ![256, 4096]⟩
abbrev S256x256 : Shape := ⟨2, ![256, 256]⟩
abbrev S4096x256 : Shape := ⟨2, ![4096, 256]⟩

abbrev nBuf : Space → Nat
  | .hbm => 17
  | .vmem => 23
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x16384, .f32⟩
  | .hbm, ⟨3, _⟩ => ⟨S2048x16384, .f32⟩
  | .hbm, ⟨4, _⟩ => ⟨S2048x16384, .f32⟩
  | .hbm, ⟨5, _⟩ => ⟨S2048x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x16384, .f32⟩
  | .hbm, ⟨10, _⟩ => ⟨S2048x4096, .bf16⟩
  | .hbm, ⟨11, _⟩ => ⟨S2048x4096, .bf16⟩
  | .hbm, ⟨12, _⟩ => ⟨S4096x16384, .bf16⟩
  | .hbm, ⟨13, _⟩ => ⟨S16384x4096, .bf16⟩
  | .hbm, ⟨14, _⟩ => ⟨S4096x16384, .bf16⟩
  | .hbm, ⟨15, _⟩ => ⟨S4096x16384, .bf16⟩
  | .hbm, ⟨16, _⟩ => ⟨S2048x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .f32⟩
  | .local _ .vmem, ⟨21, _⟩ => ⟨S256x4096, .f32⟩
  | .local _ .vmem, ⟨22, _⟩ => ⟨S256x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 64], ![false, false]⟩

def k0_cond2 (i : grid0.Coords) : BitVec 1 :=
  let arg1 : BitVec 32 := BitVec.ofNat 32 (i 1).val
  let c63_i32 : BitVec 32 := 63#32
  let v93 : BitVec 1 := Scalar.cmpi .eq arg1 c63_i32
  let v94 : BitVec 32 := Scalar.extui v93
  let c0_i32_52 : BitVec 32 := 0#32
  let v95 : BitVec 1 := Scalar.cmpi .ne v94 c0_i32_52
  v95

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  dot_S256x4096_S4096x256_S256x256_1_0_0_1_n_n_wf : DotDims.WF S256x4096 S4096x256 S256x256 [1] [0] [0] [1] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .bf16 = 32 ∨ (Rect.block (s := S2048x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x16384.size a
  hwx0_2 : ∀ i : grid0.Coords, EltTy.bits .f32 = 32 ∨ (Rect.block (s := S2048x16384) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x16384.size a
  hwx0_3 : ∀ i : grid0.Coords, EltTy.bits .f32 = 32 ∨ (Rect.block (s := S2048x16384) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S2048x16384.size a
  hwx0_4 : ∀ i : grid0.Coords, EltTy.bits .f32 = 32 ∨ (Rect.block (s := S2048x16384) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S2048x16384.size a
  hwx0_5 : ∀ i : grid0.Coords, EltTy.bits .f32 = 32 ∨ (Rect.block (s := S2048x16384) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S4096x16384.size a
  hwx0_6 : ∀ i : grid0.Coords, EltTy.bits .bf16 = 32 ∨ (Rect.block (s := S4096x16384) S4096x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S4096x16384.size a
  hwx0_7 : ∀ i : grid0.Coords, EltTy.bits .bf16 = 32 ∨ (Rect.block (s := S4096x16384) S4096x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S4096x16384.size a
  hwx0_8 : ∀ i : grid0.Coords, EltTy.bits .bf16 = 32 ∨ (Rect.block (s := S4096x16384) S4096x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4096.size a ≤ S16384x4096.size a
  hwx0_9 : ∀ i : grid0.Coords, EltTy.bits .bf16 = 32 ∨ (Rect.block (s := S16384x4096) S256x4096.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x4096.size a ≤ S2048x4096.size a
  hwx0_10 : ∀ i : grid0.Coords, EltTy.bits .f32 = 32 ∨ (Rect.block (s := S2048x4096) S256x4096.size (cc0_transform_10 i) (hinb0_10 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4096x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S4096x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S4096x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x4096.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6) S256x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S2048x4096 : Shape := ⟨2, ![2048, 4096]⟩
abbrev S2048x16384 : Shape := ⟨2, ![2048, 16384]⟩
abbrev S4096x16384 : Shape := ⟨2, ![4096, 16384]⟩
abbrev S16384x4096 : Shape := ⟨2, ![16384, 4096]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x16384, .f32⟩
  | .hbm, ⟨3, _⟩ => ⟨S2048x16384, .f32⟩
  | .hbm, ⟨4, _⟩ => ⟨S2048x16384, .f32⟩
  | .hbm, ⟨5, _⟩ => ⟨S2048x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x16384, .f32⟩
  | .hbm, ⟨10, _⟩ => ⟨S2048x16384, .f32⟩
  | .hbm, ⟨11, _⟩ => ⟨S2048x16384, .i1⟩
  | .hbm, ⟨12, _⟩ => ⟨S_, .f32⟩
  | .hbm, ⟨13, _⟩ => ⟨S2048x16384, .f32⟩
  | .hbm, ⟨14, _⟩ => ⟨S2048x16384, .f32⟩
  | .hbm, ⟨15, _⟩ => ⟨S2048x16384, .f32⟩
  | .hbm, ⟨16, _⟩ => ⟨S_, .f32⟩
  | .hbm, ⟨17, _⟩ => ⟨S2048x16384, .f32⟩
  | .hbm, ⟨18, _⟩ => ⟨S2048x16384, .f32⟩
  | .hbm, ⟨19, _⟩ => ⟨S2048x16384, .f32⟩
  | .hbm, ⟨20, _⟩ => ⟨S2048x16384, .f32⟩
  | .hbm, ⟨21, _⟩ => ⟨S2048x16384, .f32⟩
  | .hbm, ⟨22, _⟩ => ⟨S2048x16384, .i1⟩
  | .hbm, ⟨23, _⟩ => ⟨S_, .f32⟩
  | .hbm, ⟨24, _⟩ => ⟨S2048x16384, .f32⟩
  | .hbm, ⟨25, _⟩ => ⟨S2048x16384, .f32⟩
  | .hbm, ⟨26, _⟩ => ⟨S2048x16384, .f32⟩
  | .hbm, ⟨27, _⟩ => ⟨S_, .f32⟩
  | .hbm, ⟨28, _⟩ => ⟨S2048x16384, .f32⟩
  | .hbm, ⟨29, _⟩ => ⟨S2048x16384, .f32⟩
  | .hbm, ⟨30, _⟩ => ⟨S2048x16384, .f32⟩
  | .hbm, ⟨31, _⟩ => ⟨S2048x16384, .f32⟩
  | .hbm, ⟨32, _⟩ => ⟨S2048x16384, .f32⟩
  | .hbm, ⟨33, _⟩ => ⟨S2048x16384, .i1⟩
  | .hbm, ⟨34, _⟩ => ⟨S_, .f32⟩
  | .hbm, ⟨35, _⟩ => ⟨S2048x16384, .f32⟩
  | .hbm, ⟨36, _⟩ => ⟨S2048x16384, .f32⟩
  | .hbm, ⟨37, _⟩ => ⟨S2048x16384, .f32⟩
  | .hbm, ⟨38, _⟩ => ⟨S_, .f32⟩
  | .hbm, ⟨39, _⟩ => ⟨S2048x16384, .f32⟩
  | .hbm, ⟨40, _⟩ => ⟨S2048x16384, .f32⟩
  | .hbm, ⟨41, _⟩ => ⟨S2048x16384, .f32⟩
  | .hbm, ⟨42, _⟩ => ⟨S2048x16384, .f32⟩
  | .hbm, ⟨43, _⟩ => ⟨S2048x16384, .f32⟩
  | .hbm, ⟨44, _⟩ => ⟨S2048x16384, .i1⟩
  | .hbm, ⟨45, _⟩ => ⟨S_, .f32⟩
  | .hbm, ⟨46, _⟩ => ⟨S2048x16384, .f32⟩
  | .hbm, ⟨47, _⟩ => ⟨S2048x16384, .f32⟩
  | .hbm, ⟨48, _⟩ => ⟨S2048x16384, .f32⟩
  | .hbm, ⟨49, _⟩ => ⟨S_, .f32⟩
  | .hbm, ⟨50, _⟩ => ⟨S2048x16384, .f32⟩
  | .hbm, ⟨51, _⟩ => ⟨S2048x16384, .f32⟩
  | .hbm, ⟨52, _⟩ => ⟨S2048x16384, .f32⟩
  | .hbm, ⟨53, _⟩ => ⟨S2048x16384, .f32⟩
  | .hbm, ⟨54, _⟩ => ⟨S_, .f32⟩
  | .hbm, ⟨55, _⟩ => ⟨S2048x16384, .f32⟩
  | .hbm, ⟨56, _⟩ => ⟨S2048x16384, .i1⟩
  | .hbm, ⟨57, _⟩ => ⟨S_, .f32⟩
  | .hbm, ⟨58, _⟩ => ⟨S2048x16384, .f32⟩
  | .hbm, ⟨59, _⟩ => ⟨S2048x16384, .i1⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x16384, .f32⟩
  | .hbm, ⟨64, _⟩ => ⟨S2048x16384, .f32⟩
  | .hbm, ⟨65, _⟩ => ⟨S2048x16384, .f32⟩
  | .hbm, ⟨66, _⟩ => ⟨S_, .f32⟩
  | .hbm, ⟨67, _⟩ => ⟨S2048x16384, .f32⟩
  | .hbm, ⟨68, _⟩ => ⟨S2048x16384, .f32⟩
  | .hbm, ⟨69, _⟩ => ⟨S_, .f32⟩
  | .hbm, ⟨70, _⟩ => ⟨S2048x16384, .f32⟩
  | .hbm, ⟨71, _⟩ => ⟨S2048x16384, .i1⟩
  | .hbm, ⟨72, _⟩ => ⟨S_, .f32⟩
  | .hbm, ⟨73, _⟩ => ⟨S2048x16384, .f32⟩
  | .hbm, ⟨74, _⟩ => ⟨S2048x16384, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2048x16384, .f32⟩
  | .hbm, ⟨79, _⟩ => ⟨S2048x16384, .f32⟩
  | .hbm, ⟨80, _⟩ => ⟨S2048x16384, .f32⟩
  | .hbm, ⟨81, _⟩ => ⟨S_, .f32⟩
  | .hbm, ⟨82, _⟩ => ⟨S2048x16384, .f32⟩
  | .hbm, ⟨83, _⟩ => ⟨S2048x16384, .f32⟩
  | .hbm, ⟨84, _⟩ => ⟨S_, .f32⟩
  | .hbm, ⟨85, _⟩ => ⟨S2048x16384, .f32⟩
  | .hbm, ⟨86, _⟩ => ⟨S2048x16384, .i1⟩
  | .hbm, ⟨87, _⟩ => ⟨S2048x16384, .f32⟩
  | .hbm, ⟨88, _⟩ => ⟨S2048x16384, .f32⟩
  | .hbm, ⟨89, _⟩ => ⟨S_, .f32⟩
  | .hbm, ⟨90, _⟩ => ⟨S2048x16384, .f32⟩
  | .hbm, ⟨91, _⟩ => ⟨S2048x16384, .i1⟩
  | .hbm, ⟨92, _⟩ => ⟨S2048x16384, .f32⟩
  | .hbm, ⟨93, _⟩ => ⟨S2048x16384, .f32⟩
  | .hbm, ⟨94, _⟩ => ⟨S2048x16384, .f32⟩
  | .hbm, ⟨95, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_cst_10 : Ref sig .tc := ⟨.hbm, 62, rfl⟩
abbrev main_call4_v0 : Ref sig .tc := ⟨.hbm, 63, rfl⟩
abbrev main_call4_v1 : Ref sig .tc := ⟨.hbm, 64, rfl⟩
abbrev main_v41 : Ref sig .tc := ⟨.hbm, 65, rfl⟩
abbrev main_cst_11 : Ref sig .tc := ⟨.hbm, 66, rfl⟩
abbrev main_call5_v0 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_cst_13 : Ref sig .tc := ⟨.hbm, 72, rfl⟩
abbrev main_v45 : Ref sig .tc := ⟨.hbm, 73, rfl⟩
abbrev main_v46 : Ref sig .tc := ⟨.hbm, 74, rfl⟩
abbrev main_cst_14 : Ref sig .tc := ⟨.hbm, 75, rfl⟩
abbrev main_v47 : Ref sig .tc := ⟨.hbm, 76, rfl⟩
abbrev main_cst_15 : Ref sig .tc := ⟨.hbm, 77, rfl⟩
abbrev main_call6_v0 : Ref sig .tc := ⟨.hbm, 78, rfl⟩
abbrev main_call6_v1 : Ref sig .tc := ⟨.hbm, 79, rfl⟩
abbrev main_v48 : Ref sig .tc := ⟨.hbm, 80, rfl⟩
abbrev main_cst_16 : Ref sig .tc := ⟨.hbm, 81, rfl⟩
abbrev main_call7_v0 : Ref sig .tc := ⟨.hbm, 82, rfl⟩
abbrev main_v49 : Ref sig .tc := ⟨.hbm, 83, rfl⟩
abbrev main_cst_17 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_18 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  bcast_S_S2048x16384 : S_.BroadcastsInDim S2048x16384 (![] : Fin 0 → Fin S2048x16384.rank)
  dot_S2048x4096_S4096x16384_S2048x16384_1_0_0_1_n_n_wf : DotDims.WF S2048x4096 S4096x16384 S2048x16384 [1] [0] [0] [1] [] []
  dot_S2048x16384_S16384x4096_S2048x4096_1_0_0_1_n_n_wf : DotDims.WF S2048x16384 S16384x4096 S2048x4096 [1] [0] [0] [1] [] []

variable [Facts₀]

def dot_S2048x4096_S4096x16384_S2048x16384_1_0_0_1_n_n : DotDims S2048x4096 S4096x16384 S2048x16384 where
  lhsContracting := [1]
  rhsContracting := [0]
  lhsNonContracting := [0]
  rhsNonContracting := [1]
  lhsBatch := []
  rhsBatch := []
  wf := dot_S2048x4096_S4096x16384_S2048x16384_1_0_0_1_n_n_wf
def dot_S2048x16384_S16384x4096_S2048x4096_1_0_0_1_n_n : DotDims S2048x16384 S16384x4096 S2048x4096 where
  lhsContracting := [1]
  rhsContracting := [0]
  lhsNonContracting := [0]
  rhsNonContracting := [1]
  lhsBatch := []
  rhsBatch := []
  wf := dot_S2048x16384_S16384x4096_S2048x4096_1_0_0_1_n_n_wf

class Facts : Prop extends Facts₀ where

variable [Facts]
-- ==== Proof.Spec.lean ====
/-
  The mathematics of the layer, over the extended reals, with no program in sight.

  Two input streams (a "semantic" and a "phonetic" pattern, rows b, model width 4096) are projected to the hidden width
  16384 four times: each stream through its own receptance weights and both through one shared up-projection.  Every
  projection is mixed with a stored state of the same shape (`mix`: the larger of the two plus a tenth of the other),
  the two hidden mixes are turned into ternary spikes (`spike`: +1 above zero, -1 below, else 0), each spike is kept or
  negated by the sign of its stream's receptance mix (`gate`), the two gated spikes are added (`fusedAt`) and the sum is
  projected back to the model width by a last matrix product (`layer`).

  The only algebra the certificate needs is that a sum over the hidden axis can be taken block by block
  (`sum_by_blocks`): a reindexing of a finite sum in a commutative monoid, valid on the extended reals at every value,
  infinite ones included, so no finiteness hypothesis is used anywhere.
-/
import Idealize.ShloMosaic.PureOps.Ideal
import Idealize.ShloMosaic.PureOps.Ideal.Laws
import Idealize.ShloMosaic.PureOps.IdealRules
import Idealize.ShloMosaic.Lib.ValueIdx

noncomputable section

open scoped BigOperators
open Idealize.ShloMosaic Idealize.ShloMosaic.ValueIdx

namespace Cert.SpikeLayer

/-- A matrix of extended reals, indexed as the programs index their rank-2 arrays. -/
abbrev Mat (a b : Nat) : Type := (⟨2, ![a, b]⟩ : Shape).Idx → EReal

/-- The binary value of the literal written `0.1`; it is the same word in both programs and is never evaluated. -/
def tenth : EReal := Ideal.ofBits .f32 0x3DCCCCCD#32

/-- The temporal mix of a current value `c` with a stored one `p`: the larger plus a tenth of the other. -/
def mix (c p : EReal) : EReal :=
  Scalar.select (FloatOps.cmpf (F := Ideal) (φ := .f32) .ogt c p) (c + tenth * p) (p + tenth * c)

/-- The ternary spike of `x` with the dead zone of width zero: `1` above `0`, `-1` below `-0`, else `0`
    (the literals as the kernel writes them). -/
def spike (x : EReal) : EReal :=
  Scalar.select (FloatOps.cmpf (F := Ideal) (φ := .f32) .ogt x (Ideal.ofBits .f32 0x00000000#32))
    (Ideal.ofBits .f32 0x3F800000#32)
    (Scalar.select (FloatOps.cmpf (F := Ideal) (φ := .f32) .olt x (Ideal.ofBits .f32 0x80000000#32))
      (Ideal.ofBits .f32 0xBF800000#32) (Ideal.ofBits .f32 0x00000000#32))

/-- A spike `s` kept where the receptance `r` is positive and negated elsewhere (the negation written `0 - s`). -/
def gate (r s : EReal) : EReal :=
  Scalar.select (FloatOps.cmpf (F := Ideal) (φ := .f32) .ogt r (Ideal.ofBits .f32 0x00000000#32))
    s (Ideal.ofBits .f32 0x00000000#32 - s)

/-- The reference writes `-1` as the negation of the literal `1`: the same extended real as the literal `-1`. -/
theorem neg_one_lit : -(Ideal.ofBits .f32 0x3F800000#32) = Ideal.ofBits .f32 0xBF800000#32 := by
  have h1 : Ideal.ofBits .f32 0x3F800000#32 = 1 := IdealRules.sign_bit.ideal_onePat .f32
  have h2 : Ideal.ofBits .f32 0xBF800000#32 = -1 := IdealRules.sign_bit.ideal_negOnePat .f32
  rw [h1, h2]

/-- and a negation as the difference from the literal zero. -/
theorem neg_eq_zero_lit_sub (s : EReal) : -s = Ideal.ofBits .f32 0x00000000#32 - s := by
  rw [Ideal.ofBits_zero_f32, zero_sub]

/-- One entry of the fused hidden activation from the four projections and the four stored states at that entry. -/
def fusedAt (semRec phonRec semHid phonHid prevSemRec prevPhonRec prevSemAct prevPhonAct : EReal) : EReal :=
  gate (mix semRec prevSemRec) (spike (mix semHid prevSemAct))
    + gate (mix phonRec prevPhonRec) (spike (mix phonHid prevPhonAct))

/-- A pattern row against a weight column: the projection to the hidden width at entry `(b, f)`. -/
def proj (x : Mat 2048 4096) (w : Mat 4096 16384) (b : Fin 2048) (f : Fin 16384) : EReal :=
  ∑ d : Fin 4096, x (ix2 b d) * w (ix2 d f)

/-- The fused hidden activation at entry `(b, f)`. -/
def fused (sem phon : Mat 2048 4096) (prevSemAct prevPhonAct prevSemRec prevPhonRec : Mat 2048 16384)
    (w1 wSemRec wPhonRec : Mat 4096 16384) (b : Fin 2048) (f : Fin 16384) : EReal :=
  fusedAt (proj sem wSemRec b f) (proj phon wPhonRec b f) (proj sem w1 b f) (proj phon w1 b f)
    (prevSemRec (ix2 b f)) (prevPhonRec (ix2 b f)) (prevSemAct (ix2 b f)) (prevPhonAct (ix2 b f))

/-- THE LAYER: the fused activation projected back to the model width. -/
def layer (sem phon : Mat 2048 4096) (prevSemAct prevPhonAct prevSemRec prevPhonRec : Mat 2048 16384)
    (w1 : Mat 4096 16384) (w2 : Mat 16384 4096) (wSemRec wPhonRec : Mat 4096 16384) : Mat 2048 4096 := fun i =>
  ∑ f : Fin 16384, fused sem phon prevSemAct prevPhonAct prevSemRec prevPhonRec w1 wSemRec wPhonRec (i 0) f * w2 (ix2 f (i 1))

/-- A sum over `J * K` indices taken as `J` consecutive blocks of `K`: position `K * s + k` is entry `k` of block `s`. -/
theorem sum_by_blocks {M : Type*} [AddCommMonoid M] (J K : Nat) (g : Fin (J * K) → M) :
    ∑ f : Fin (J * K), g f
      = ∑ s ∈ Finset.range J, ∑ k : Fin K,
          if h : s < J then g ⟨K * s + k.val, by
            calc K * s + k.val < K * s + K := Nat.add_lt_add_left k.isLt _
              _ = K * (s + 1) := (Nat.mul_succ K s).symm
              _ ≤ K * J := Nat.mul_le_mul_left K h
              _ = J * K := Nat.mul_comm K J⟩ else 0 := by
  rw [← Equiv.sum_comp finProdFinEquiv g, Fintype.sum_prod_type, Finset.sum_range]
  refine Finset.sum_congr rfl fun s _ => Finset.sum_congr rfl fun k _ => ?_
  rw [dif_pos s.isLt]
  exact congrArg g (Fin.ext (by simp [finProdFinEquiv, Nat.add_comm]))

end Cert.SpikeLayer

end
-- ==== Proof.PointStep.lean ====
/-
  What one grid point does to the accumulator.

  The kernel walks a grid of 8 row tiles by 64 hidden tiles, the hidden tile innermost.  At every point it forms, from
  the point's blocks, the fused hidden activation of the tile (256 rows by 256 hidden columns), multiplies it by the
  matching 256 rows of the down-projection and ADDS the product into a 256 x 4096 accumulator that lives across the 64
  points of a row tile.  At the first hidden tile the accumulator is first set to zero; at the last one it is also
  copied to the output block.  Here each of these is read off the body's run as ONE function, `pointStep`, of the ten
  input blocks and of what the accumulator held: whatever the control case, the accumulator ends at `pointStep` of its
  former contents (of the zero block at a first tile), and at a last tile so does the output block.
-/
import proofs.«170136_j90314572300882_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The zero block a first hidden tile stores into the accumulator. -/
abbrev zeroBlock : Vec F S256x4096 .f32 := k0_pay2

/-- The accumulator after a point whose input blocks are `x0 … x9` (the two patterns' row tiles, the four stored
    states' tiles, the three up-projections' column tiles, the down-projection's row tile), when it held `acc`:
    `acc` plus the tile's fused activation times the down-projection's rows. -/
def pointStep (x0 : Vec F S256x4096 .bf16) (x1 : Vec F S256x4096 .bf16) (x2 : Vec F S256x256 .f32) (x3 : Vec F S256x256 .f32) (x4 : Vec F S256x256 .f32) (x5 : Vec F S256x256 .f32) (x6 : Vec F S4096x256 .bf16) (x7 : Vec F S4096x256 .bf16) (x8 : Vec F S4096x256 .bf16) (x9 : Vec F S256x4096 .bf16) (acc : Vec F S256x4096 .f32) : Vec F S256x4096 .f32 :=
  k0_pay1 (k0_pay5 x0 x7 x4) (k0_pay6 x1 x8 x5) (k0_pay8 (k0_pay7 x0 x6) x2) (k0_pay9 (k0_pay4 x1) x6 x3) acc x9

/-- A first hidden tile: the accumulator is zeroed, read back, and stepped. -/
theorem scratch_first (c : Dev nD) (i : grid0.Coords) (a2 : Memref sig .tc .vmem S256x4096 .bf16) (h2 : a2.IsWhole) (a3 : Memref sig .tc .vmem S256x4096 .bf16) (h3 : a3.IsWhole) (a4 : Memref sig .tc .vmem S256x256 .f32) (h4 : a4.IsWhole) (a5 : Memref sig .tc .vmem S256x256 .f32) (h5 : a5.IsWhole) (a6 : Memref sig .tc .vmem S256x256 .f32) (h6 : a6.IsWhole) (a7 : Memref sig .tc .vmem S256x256 .f32) (h7 : a7.IsWhole) (a8 : Memref sig .tc .vmem S4096x256 .bf16) (h8 : a8.IsWhole) (a9 : Memref sig .tc .vmem S4096x256 .bf16) (h9 : a9.IsWhole) (a10 : Memref sig .tc .vmem S4096x256 .bf16) (h10 : a10.IsWhole) (a11 : Memref sig .tc .vmem S256x4096 .bf16) (h11 : a11.IsWhole) (a12 : Memref sig .tc .vmem S256x4096 .f32) (h12 : a12.IsWhole) (a13 : Memref sig .tc .vmem S256x4096 .f32) (h13 : a13.IsWhole) (hc0 : cond0_0 i) (hc1 : ¬cond0_1 i) (x0 : Vec F S256x4096 .bf16) (x1 : Vec F S256x4096 .bf16) (x2 : Vec F S256x256 .f32) (x3 : Vec F S256x256 .f32) (x4 : Vec F S256x256 .f32) (x5 : Vec F S256x256 .f32) (x6 : Vec F S4096x256 .bf16) (x7 : Vec F S4096x256 .bf16) (x8 : Vec F S4096x256 .bf16) (x9 : Vec F S256x4096 .bf16) :
    sout0_A_0 c i a2 h2 a3 h3 a4 h4 a5 h5 a6 h6 a7 h7 a8 h8 a9 h9 a10 h10 a11 h11 a12 h12 a13 h13 hc0 hc1 x0 x1 x2 x3 x4 x5 x6 x7 x8 x9 = pointStep x0 x1 x2 x3 x4 x5 x6 x7 x8 x9 zeroBlock := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 x0 x1 x2 x3 x4 x5 x6 x7 x8 x9)]
  unfold kernelRun0_A
  dsimp only
  sl_unfold_words
  rw [View.canon_cons_unit_zero (S := S256x4096) hz, View.readCov_unit_zero (S := S256x4096) _ hz]
  unfold pointStep
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S256x4096) hz, View.ld_unit_zero (S := S4096x256) hz, View.ld_unit_zero (S := S256x256) hz]

/-- A middle hidden tile: the accumulator is stepped from what the point before left. -/
theorem scratch_middle (c : Dev nD) (i : grid0.Coords) (a2 : Memref sig .tc .vmem S256x4096 .bf16) (h2 : a2.IsWhole) (a3 : Memref sig .tc .vmem S256x4096 .bf16) (h3 : a3.IsWhole) (a4 : Memref sig .tc .vmem S256x256 .f32) (h4 : a4.IsWhole) (a5 : Memref sig .tc .vmem S256x256 .f32) (h5 : a5.IsWhole) (a6 : Memref sig .tc .vmem S256x256 .f32) (h6 : a6.IsWhole) (a7 : Memref sig .tc .vmem S256x256 .f32) (h7 : a7.IsWhole) (a8 : Memref sig .tc .vmem S4096x256 .bf16) (h8 : a8.IsWhole) (a9 : Memref sig .tc .vmem S4096x256 .bf16) (h9 : a9.IsWhole) (a10 : Memref sig .tc .vmem S4096x256 .bf16) (h10 : a10.IsWhole) (a11 : Memref sig .tc .vmem S256x4096 .bf16) (h11 : a11.IsWhole) (a12 : Memref sig .tc .vmem S256x4096 .f32) (h12 : a12.IsWhole) (a13 : Memref sig .tc .vmem S256x4096 .f32) (h13 : a13.IsWhole) (hc0 : ¬cond0_0 i) (hc1 : ¬cond0_1 i) (x0 : Vec F S256x4096 .bf16) (x1 : Vec F S256x4096 .bf16) (x2 : Vec F S256x256 .f32) (x3 : Vec F S256x256 .f32) (x4 : Vec F S256x256 .f32) (x5 : Vec F S256x256 .f32) (x6 : Vec F S4096x256 .bf16) (x7 : Vec F S4096x256 .bf16) (x8 : Vec F S4096x256 .bf16) (x9 : Vec F S256x4096 .bf16) (xs0 : Vec F S256x4096 .f32) :
    sout0_B_0 c i a2 h2 a3 h3 a4 h4 a5 h5 a6 h6 a7 h7 a8 h8 a9 h9 a10 h10 a11 h11 a12 h12 a13 h13 hc0 hc1 x0 x1 x2 x3 x4 x5 x6 x7 x8 x9 xs0 = pointStep x0 x1 x2 x3 x4 x5 x6 x7 x8 x9 xs0 := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 x0 x1 x2 x3 x4 x5 x6 x7 x8 x9 xs0)]
  unfold kernelRun0_B
  dsimp only
  sl_unfold_words
  rw [View.canon_unit_zero hz]
  unfold pointStep
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S256x4096) hz, View.ld_unit_zero (S := S4096x256) hz, View.ld_unit_zero (S := S256x256) hz]

/-- A last hidden tile: the accumulator is stepped the same way, -/
theorem scratch_last (c : Dev nD) (i : grid0.Coords) (a2 : Memref sig .tc .vmem S256x4096 .bf16) (h2 : a2.IsWhole) (a3 : Memref sig .tc .vmem S256x4096 .bf16) (h3 : a3.IsWhole) (a4 : Memref sig .tc .vmem S256x256 .f32) (h4 : a4.IsWhole) (a5 : Memref sig .tc .vmem S256x256 .f32) (h5 : a5.IsWhole) (a6 : Memref sig .tc .vmem S256x256 .f32) (h6 : a6.IsWhole) (a7 : Memref sig .tc .vmem S256x256 .f32) (h7 : a7.IsWhole) (a8 : Memref sig .tc .vmem S4096x256 .bf16) (h8 : a8.IsWhole) (a9 : Memref sig .tc .vmem S4096x256 .bf16) (h9 : a9.IsWhole) (a10 : Memref sig .tc .vmem S4096x256 .bf16) (h10 : a10.IsWhole) (a11 : Memref sig .tc .vmem S256x4096 .bf16) (h11 : a11.IsWhole) (a12 : Memref sig .tc .vmem S256x4096 .f32) (h12 : a12.IsWhole) (a13 : Memref sig .tc .vmem S256x4096 .f32) (h13 : a13.IsWhole) (hc0 : ¬cond0_0 i) (hc1 : cond0_1 i) (x0 : Vec F S256x4096 .bf16) (x1 : Vec F S256x4096 .bf16) (x2 : Vec F S256x256 .f32) (x3 : Vec F S256x256 .f32) (x4 : Vec F S256x256 .f32) (x5 : Vec F S256x256 .f32) (x6 : Vec F S4096x256 .bf16) (x7 : Vec F S4096x256 .bf16) (x8 : Vec F S4096x256 .bf16) (x9 : Vec F S256x4096 .bf16) (xs0 : Vec F S256x4096 .f32) :
    sout0_C_0 c i a2 h2 a3 h3 a4 h4 a5 h5 a6 h6 a7 h7 a8 h8 a9 h9 a10 h10 a11 h11 a12 h12 a13 h13 hc0 hc1 x0 x1 x2 x3 x4 x5 x6 x7 x8 x9 xs0 = pointStep x0 x1 x2 x3 x4 x5 x6 x7 x8 x9 xs0 := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 x0 x1 x2 x3 x4 x5 x6 x7 x8 x9 xs0)]
  unfold kernelRun0_C
  dsimp only
  sl_unfold_words
  rw [View.canon_unit_zero hz]
  unfold pointStep
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S256x4096) hz, View.ld_unit_zero (S := S4096x256) hz, View.ld_unit_zero (S := S256x256) hz]

/-- and the output block is the accumulator read back after that step. -/
theorem out_last (c : Dev nD) (i : grid0.Coords) (a2 : Memref sig .tc .vmem S256x4096 .bf16) (h2 : a2.IsWhole) (a3 : Memref sig .tc .vmem S256x4096 .bf16) (h3 : a3.IsWhole) (a4 : Memref sig .tc .vmem S256x256 .f32) (h4 : a4.IsWhole) (a5 : Memref sig .tc .vmem S256x256 .f32) (h5 : a5.IsWhole) (a6 : Memref sig .tc .vmem S256x256 .f32) (h6 : a6.IsWhole) (a7 : Memref sig .tc .vmem S256x256 .f32) (h7 : a7.IsWhole) (a8 : Memref sig .tc .vmem S4096x256 .bf16) (h8 : a8.IsWhole) (a9 : Memref sig .tc .vmem S4096x256 .bf16) (h9 : a9.IsWhole) (a10 : Memref sig .tc .vmem S4096x256 .bf16) (h10 : a10.IsWhole) (a11 : Memref sig .tc .vmem S256x4096 .bf16) (h11 : a11.IsWhole) (a12 : Memref sig .tc .vmem S256x4096 .f32) (h12 : a12.IsWhole) (a13 : Memref sig .tc .vmem S256x4096 .f32) (h13 : a13.IsWhole) (hc0 : ¬cond0_0 i) (hc1 : cond0_1 i) (x0 : Vec F S256x4096 .bf16) (x1 : Vec F S256x4096 .bf16) (x2 : Vec F S256x256 .f32) (x3 : Vec F S256x256 .f32) (x4 : Vec F S256x256 .f32) (x5 : Vec F S256x256 .f32) (x6 : Vec F S4096x256 .bf16) (x7 : Vec F S4096x256 .bf16) (x8 : Vec F S4096x256 .bf16) (x9 : Vec F S256x4096 .bf16) (xs0 : Vec F S256x4096 .f32) :
    out0_C_10 c i a2 h2 a3 h3 a4 h4 a5 h5 a6 h6 a7 h7 a8 h8 a9 h9 a10 h10 a11 h11 a12 h12 a13 h13 hc0 hc1 x0 x1 x2 x3 x4 x5 x6 x7 x8 x9 xs0 = pointStep x0 x1 x2 x3 x4 x5 x6 x7 x8 x9 xs0 := by
  unfold out0_C_10
  rw [View.read_writes_eq_canon _ _ _ (cover0_C_10 c i a2 h2 a3 h3 a4 h4 a5 h5 a6 h6 a7 h7 a8 h8 a9 h9 a10 h10 a11 h11 a12 h12 a13 h13 hc0 hc1 x0 x1 x2 x3 x4 x5 x6 x7 x8 x9 xs0)]
  unfold kernelRun0_C
  dsimp only
  sl_unfold_words
  rw [View.canon_unit_zero hz, View.readCov_unit_zero (S := S256x4096) _ hz]
  unfold pointStep
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S256x4096) hz, View.ld_unit_zero (S := S4096x256) hz, View.ld_unit_zero (S := S256x256) hz]

end Cert.KernelIdeal.Acc

end
-- ==== Proof.TileValue.lean ====
/-
  One grid point's step, read at an entry, over the extended reals.

  At the exact instance every operation of the body is the textbook one and a change of float format is the identity,
  so the accumulator's entry `(r, d)` after a point is its former value plus the sum, over the tile's 256 hidden
  columns `k`, of the tile's fused activation at `(r, k)` times the down-projection block's entry `(k, d)`; and the
  fused activation at `(r, k)` is `SpikeLayer.fusedAt` of the four row-by-column products of the point's pattern and
  weight blocks and of the four stored-state blocks' entries there.  Both matrix products start from a zero
  accumulator, so each is a plain sum over its one contracted axis.
-/
import proofs.«170136_j90314572300882_1_alg».proof.Proof.Spec
import proofs.«170136_j90314572300882_1_alg».proof.Proof.PointStep
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.ShloMosaic.ValueIdx

namespace Cert.KernelIdeal.Acc

open Cert.KernelIdeal Cert.KernelIdeal.Gen Cert.SpikeLayer

/-! ## The two matrix products of the body at an entry -/

theorem up_lhs_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem up_lhs_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem up_rhs_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem up_rhs_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- A pattern's row tile against an up-projection's column tile: row `r` of the one times column `k` of the other. -/
theorem upProj_apply (x : FVec Ideal S256x4096 .bf16) (w : FVec Ideal S4096x256 .bf16) (r k : Fin 256) :
    matmul (F := Ideal) dot_S256x4096_S4096x256_S256x256_1_0_0_1_n_n none x w (constant S256x256 .f32 0x00000000#32) (ix2 r k)
      = ∑ d : Fin 4096, x (ix2 r d) * w (ix2 d k) := by
  simp only [matmul]
  rw [Ideal.matmul_constant_zero_apply, ← Equiv.sum_comp (contrEquiv1 dot_S256x4096_S4096x256_S256x256_1_0_0_1_n_n 4096 rfl rfl).symm]
  refine Finset.sum_congr rfl fun d _ => ?_
  have hk := contrEquiv1_symm_val dot_S256x4096_S4096x256_S256x256_1_0_0_1_n_n 4096 rfl rfl d
  have el : dot_S256x4096_S4096x256_S256x256_1_0_0_1_n_n.lhsIdx (ix2 r k) ((contrEquiv1 dot_S256x4096_S4096x256_S256x256_1_0_0_1_n_n 4096 rfl rfl).symm d) = ix2 r d := funext fun a => Fin.ext (by
    match a with
    | ⟨0, _⟩ => exact up_lhs_0 _ _
    | ⟨1, _⟩ => exact (up_lhs_1 _ _).trans hk)
  have er : dot_S256x4096_S4096x256_S256x256_1_0_0_1_n_n.rhsIdx (ix2 r k) ((contrEquiv1 dot_S256x4096_S4096x256_S256x256_1_0_0_1_n_n 4096 rfl rfl).symm d) = ix2 d k := funext fun a => Fin.ext (by
    match a with
    | ⟨0, _⟩ => exact (up_rhs_0 _ _).trans hk
    | ⟨1, _⟩ => exact up_rhs_1 _ _)
  rw [el, er]

theorem down_lhs_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem down_lhs_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem down_rhs_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem down_rhs_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- The tile's activation against the down-projection's row tile: row `r` of the one times column `d` of the other. -/
theorem downProj_apply (a : FVec Ideal S256x256 .bf16) (w : FVec Ideal S256x4096 .bf16) (r : Fin 256) (d : Fin 4096) :
    matmul (F := Ideal) dot_S256x256_S256x4096_S256x4096_1_0_0_1_n_n none a w (constant S256x4096 .f32 0x00000000#32) (ix2 r d)
      = ∑ k : Fin 256, a (ix2 r k) * w (ix2 k d) := by
  simp only [matmul]
  rw [Ideal.matmul_constant_zero_apply, ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 r d) ((contrEquiv1 dot_S256x256_S256x4096_S256x4096_1_0_0_1_n_n 256 rfl rfl).symm k) = ix2 r k := funext fun a => Fin.ext (by
    match a with
    | ⟨0, _⟩ => exact down_lhs_0 _ _
    | ⟨1, _⟩ => exact (down_lhs_1 _ _).trans hk)
  have er : dot_S256x256_S256x4096_S256x4096_1_0_0_1_n_n.rhsIdx (ix2 r d) ((contrEquiv1 dot_S256x256_S256x4096_S256x4096_1_0_0_1_n_n 256 rfl rfl).symm k) = ix2 k d := funext fun a => Fin.ext (by
    match a with
    | ⟨0, _⟩ => exact (down_rhs_0 _ _).trans hk
    | ⟨1, _⟩ => exact down_rhs_1 _ _)
  rw [el, er]

/-! ## The body's intermediate tiles at an entry -/

/-- The semantic receptance tile: the mix of the projection with the stored receptance. -/
theorem semRec_apply (x0 : Vec Ideal S256x4096 .bf16) (x7 : Vec Ideal S4096x256 .bf16) (x4 : Vec Ideal S256x256 .f32) (r k : Fin 256) :
    k0_pay5 (F := Ideal) x0 x7 x4 (ix2 r k) = mix (∑ d : Fin 4096, x0 (ix2 r d) * x7 (ix2 d k)) (x4 (ix2 r k)) := by
  have e := upProj_apply x0 x7 r k
  unfold k0_pay5 k0_pay3
  simp only [shapeCast_self]
  exact congrArg (fun v => mix v (x4 (ix2 r k))) e

/-- The phonetic receptance tile. -/
theorem phonRec_apply (x1 : Vec Ideal S256x4096 .bf16) (x8 : Vec Ideal S4096x256 .bf16) (x5 : Vec Ideal S256x256 .f32) (r k : Fin 256) :
    k0_pay6 (F := Ideal) x1 x8 x5 (ix2 r k) = mix (∑ d : Fin 4096, x1 (ix2 r d) * x8 (ix2 d k)) (x5 (ix2 r k)) := by
  have e := upProj_apply x1 x8 r k
  unfold k0_pay6 k0_pay4
  simp only [shapeCast_self]
  exact congrArg (fun v => mix v (x5 (ix2 r k))) e

/-- The semantic spikes: the shared up-projection mixed with the stored activation, then the ternary sign. -/
theorem semSpike_apply (x0 : Vec Ideal S256x4096 .bf16) (x6 : Vec Ideal S4096x256 .bf16) (x2 : Vec Ideal S256x256 .f32) (r k : Fin 256) :
    k0_pay8 (F := Ideal) (k0_pay7 x0 x6) x2 (ix2 r k) = spike (mix (∑ d : Fin 4096, x0 (ix2 r d) * x6 (ix2 d k)) (x2 (ix2 r k))) := by
  have e : k0_pay7 (F := Ideal) x0 x6 (ix2 r k) = ∑ d : Fin 4096, x0 (ix2 r d) * x6 (ix2 d k) := by
    have e' := upProj_apply x0 x6 r k
    unfold k0_pay7 k0_pay3
    simp only [shapeCast_self]
    exact e'
  unfold k0_pay8
  exact congrArg (fun v => spike (mix v (x2 (ix2 r k)))) e

/-- The phonetic spikes. -/
theorem phonSpike_apply (x1 : Vec Ideal S256x4096 .bf16) (x6 : Vec Ideal S4096x256 .bf16) (x3 : Vec Ideal S256x256 .f32) (r k : Fin 256) :
    k0_pay9 (F := Ideal) (k0_pay4 x1) x6 x3 (ix2 r k) = spike (mix (∑ d : Fin 4096, x1 (ix2 r d) * x6 (ix2 d k)) (x3 (ix2 r k))) := by
  have e := upProj_apply x1 x6 r k
  unfold k0_pay9 k0_pay4
  simp only [shapeCast_self]
  exact congrArg (fun v => spike (mix v (x3 (ix2 r k)))) e

/-! ## The step at an entry -/

/-- The fused activation of the tile at `(r, k)`, from the point's blocks. -/
def tileFused (x0 : Vec Ideal S256x4096 .bf16) (x1 : Vec Ideal S256x4096 .bf16) (x2 : Vec Ideal S256x256 .f32) (x3 : Vec Ideal S256x256 .f32) (x4 : Vec Ideal S256x256 .f32) (x5 : Vec Ideal S256x256 .f32) (x6 : Vec Ideal S4096x256 .bf16) (x7 : Vec Ideal S4096x256 .bf16) (x8 : Vec Ideal S4096x256 .bf16) (r k : Fin 256) : EReal :=
  fusedAt (∑ d : Fin 4096, x0 (ix2 r d) * x7 (ix2 d k)) (∑ d : Fin 4096, x1 (ix2 r d) * x8 (ix2 d k))
    (∑ d : Fin 4096, x0 (ix2 r d) * x6 (ix2 d k)) (∑ d : Fin 4096, x1 (ix2 r d) * x6 (ix2 d k))
    (x4 (ix2 r k)) (x5 (ix2 r k)) (x2 (ix2 r k)) (x3 (ix2 r k))

/-- THE STEP AT AN ENTRY: the former value plus the tile's activation row against the down-projection column. -/
theorem pointStep_apply (x0 : Vec Ideal S256x4096 .bf16) (x1 : Vec Ideal S256x4096 .bf16) (x2 : Vec Ideal S256x256 .f32) (x3 : Vec Ideal S256x256 .f32) (x4 : Vec Ideal S256x256 .f32) (x5 : Vec Ideal S256x256 .f32) (x6 : Vec Ideal S4096x256 .bf16) (x7 : Vec Ideal S4096x256 .bf16) (x8 : Vec Ideal S4096x256 .bf16) (x9 : Vec Ideal S256x4096 .bf16) (acc : Vec Ideal S256x4096 .f32) (r : Fin 256) (d : Fin 4096) :
    pointStep (F := Ideal) x0 x1 x2 x3 x4 x5 x6 x7 x8 x9 acc (ix2 r d)
      = acc (ix2 r d) + ∑ k : Fin 256, tileFused x0 x1 x2 x3 x4 x5 x6 x7 x8 r k * x9 (ix2 k d) := by
  unfold pointStep k0_pay1
  simp only [shapeCast_self]
  refine congrArg (acc (ix2 r d) + ·) ((downProj_apply _ x9 r d).trans (Finset.sum_congr rfl fun k _ => congrArg (· * x9 (ix2 k d)) ?_))
  show gate (k0_pay5 (F := Ideal) x0 x7 x4 (ix2 r k)) (k0_pay8 (F := Ideal) (k0_pay7 x0 x6) x2 (ix2 r k))
      + gate (k0_pay6 (F := Ideal) x1 x8 x5 (ix2 r k)) (k0_pay9 (F := Ideal) (k0_pay4 x1) x6 x3 (ix2 r k)) = _
  rw [semRec_apply, phonRec_apply, semSpike_apply, phonSpike_apply]
  rfl

end Cert.KernelIdeal.Acc

end
-- ==== Proof.TileReads.lean ====
/-
  The point's blocks as parts of the argument arrays.

  Grid point `t` is row tile `t / 64` and hidden tile `t % 64`.  The patterns' blocks are rows
  `256 (t / 64) + r` of their arrays, the four stored states' blocks the entries at those rows and hidden columns
  `256 (t % 64) + k`, the three up-projections' blocks those columns, the down-projection's block those rows of its
  array, and the output block the rows of the row tile.  Before the kernel the program only changes the float format of
  the patterns and the weights, which over the extended reals changes nothing: the arrays the kernel's windows read are
  the arguments themselves.  So the fused activation of a tile is the layer's fused activation at the tile's offsets
  (`tileFused_at`).
-/
import proofs.«170136_j90314572300882_1_alg».proof.Proof.Gen.KernelIdeal.Value
import proofs.«170136_j90314572300882_1_alg».proof.Proof.TileValue
import Idealize.ShloMosaic.Lib.StableHlo.Run

noncomputable section

open scoped BigOperators
open Idealize.ShloMosaic Idealize.ShloMosaic.TcCoe Idealize.ShloMosaic.ValueIdx Idealize.SL.Sem Idealize.ShloMosaic.StableHlo

namespace Cert.KernelIdeal.Acc

open Cert.KernelIdeal Cert.KernelIdeal.Gen Cert.SpikeLayer

variable (m : (ℓ : Loc nD τ sig) → Buf (Elt Ideal) ℓ)

/-! ## The arrays the windows read are the arguments -/

theorem V_semTile (c : Dev nD) : (V m c main_v0 : S2048x4096.Idx → EReal) = m ((c : Thread nD τ).loc main_arg0) := by
  dsimp only [Gen.V, Gen.hostOps0]
  after_results
  rfl
theorem V_phonTile (c : Dev nD) : (V m c main_v1 : S2048x4096.Idx → EReal) = m ((c : Thread nD τ).loc main_arg1) := by
  dsimp only [Gen.V, Gen.hostOps0]
  after_results
  rfl
theorem V_w1Tile (c : Dev nD) : (V m c main_v2 : S4096x16384.Idx → EReal) = m ((c : Thread nD τ).loc main_arg6) := by
  dsimp only [Gen.V, Gen.hostOps0]
  after_results
  rfl
theorem V_wSemRecTile (c : Dev nD) : (V m c main_v4 : S4096x16384.Idx → EReal) = m ((c : Thread nD τ).loc main_arg8) := by
  dsimp only [Gen.V, Gen.hostOps0]
  after_results
  rfl
theorem V_wPhonRecTile (c : Dev nD) : (V m c main_v5 : S4096x16384.Idx → EReal) = m ((c : Thread nD τ).loc main_arg9) := by
  dsimp only [Gen.V, Gen.hostOps0]
  after_results
  rfl
theorem V_w2Tile (c : Dev nD) : (V m c main_v3 : S16384x4096.Idx → EReal) = m ((c : Thread nD τ).loc main_arg7) := by
  dsimp only [Gen.V, Gen.hostOps0]
  after_results
  rfl

/-! ## The blocks, typed by their literal shapes -/

/-- The semantic pattern's row tile at point `t`. -/
abbrev semTile (c : Dev nD) (t : Fin cfg0.N) : Vec Ideal S256x4096 .bf16 := iblk m c 0 t
/-- The phonetic pattern's row tile at point `t`. -/
abbrev phonTile (c : Dev nD) (t : Fin cfg0.N) : Vec Ideal S256x4096 .bf16 := iblk m c 1 t
/-- The stored semantic activation's tile at point `t`. -/
abbrev prevSemActTile (c : Dev nD) (t : Fin cfg0.N) : Vec Ideal S256x256 .f32 := iblk m c 2 t
/-- The stored phonetic activation's tile at point `t`. -/
abbrev prevPhonActTile (c : Dev nD) (t : Fin cfg0.N) : Vec Ideal S256x256 .f32 := iblk m c 3 t
/-- The stored semantic receptance's tile at point `t`. -/
abbrev prevSemRecTile (c : Dev nD) (t : Fin cfg0.N) : Vec Ideal S256x256 .f32 := iblk m c 4 t
/-- The stored phonetic receptance's tile at point `t`. -/
abbrev prevPhonRecTile (c : Dev nD) (t : Fin cfg0.N) : Vec Ideal S256x256 .f32 := iblk m c 5 t
/-- The shared up-projection's column tile at point `t`. -/
abbrev w1Tile (c : Dev nD) (t : Fin cfg0.N) : Vec Ideal S4096x256 .bf16 := iblk m c 6 t
/-- The semantic receptance weights' column tile at point `t`. -/
abbrev wSemRecTile (c : Dev nD) (t : Fin cfg0.N) : Vec Ideal S4096x256 .bf16 := iblk m c 7 t
/-- The phonetic receptance weights' column tile at point `t`. -/
abbrev wPhonRecTile (c : Dev nD) (t : Fin cfg0.N) : Vec Ideal S4096x256 .bf16 := iblk m c 8 t
/-- The down-projection's row tile at point `t`. -/
abbrev w2Tile (c : Dev nD) (t : Fin cfg0.N) : Vec Ideal S256x4096 .bf16 := iblk m c 9 t

/-- Where each window's block sits at point `t`: the printed index maps, decided over the 512 points. -/
theorem tile_index : ∀ t : Fin cfg0.N,
    win0_0.index t (0 : Fin 2) = t.val / 64
    ∧ win0_0.index t (1 : Fin 2) = 0
    ∧ win0_1.index t (0 : Fin 2) = t.val / 64
    ∧ win0_1.index t (1 : Fin 2) = 0
    ∧ win0_2.index t (0 : Fin 2) = t.val / 64
    ∧ win0_2.index t (1 : Fin 2) = t.val % 64
    ∧ win0_3.index t (0 : Fin 2) = t.val / 64
    ∧ win0_3.index t (1 : Fin 2) = t.val % 64
    ∧ win0_4.index t (0 : Fin 2) = t.val / 64
    ∧ win0_4.index t (1 : Fin 2) = t.val % 64
    ∧ win0_5.index t (0 : Fin 2) = t.val / 64
    ∧ win0_5.index t (1 : Fin 2) = t.val % 64
    ∧ win0_6.index t (0 : Fin 2) = 0
    ∧ win0_6.index t (1 : Fin 2) = t.val % 64
    ∧ win0_7.index t (0 : Fin 2) = 0
    ∧ win0_7.index t (1 : Fin 2) = t.val % 64
    ∧ win0_8.index t (0 : Fin 2) = 0
    ∧ win0_8.index t (1 : Fin 2) = t.val % 64
    ∧ win0_9.index t (0 : Fin 2) = t.val % 64
    ∧ win0_9.index t (1 : Fin 2) = 0
    ∧ win0_10.index t (0 : Fin 2) = t.val / 64
    ∧ win0_10.index t (1 : Fin 2) = 0 :=
  (by decide +kernel : ∀ t : Fin grid0.N, _)

/-- An entry of the semantic pattern's row tile is the array's entry at the tile's offset. -/
theorem semTile_apply (c : Dev nD) (t : Fin cfg0.N) (r : Fin 256) (d : Fin 4096) (b : Fin 2048) (hb : b.val = 256 * (t.val / 64) + r.val) :
    semTile m c t (ix2 r d) = m ((c : Thread nD τ).loc main_arg0) (ix2 b d) := by
  show V m c main_v0 (((cfg0.win 0).blk t).view.emb (ix2 r d)) = _
  rw [V_semTile m c]
  refine congrArg _ (funext fun a => Fin.ext ?_)
  have e0 := (tile_index t).1
  have e1 := (tile_index t).2.1
  match a with
  | ⟨0, _⟩ => show win0_0.index t (0 : Fin 2) * 256 + 1 * r.val = b.val; omega
  | ⟨1, _⟩ => show win0_0.index t (1 : Fin 2) * 4096 + 1 * d.val = d.val; omega

/-- An entry of the phonetic pattern's row tile is the array's entry at the tile's offset. -/
theorem phonTile_apply (c : Dev nD) (t : Fin cfg0.N) (r : Fin 256) (d : Fin 4096) (b : Fin 2048) (hb : b.val = 256 * (t.val / 64) + r.val) :
    phonTile m c t (ix2 r d) = m ((c : Thread nD τ).loc main_arg1) (ix2 b d) := by
  show V m c main_v1 (((cfg0.win 1).blk t).view.emb (ix2 r d)) = _
  rw [V_phonTile m c]
  refine congrArg _ (funext fun a => Fin.ext ?_)
  have e0 := (tile_index t).2.2.1
  have e1 := (tile_index t).2.2.2.1
  match a with
  | ⟨0, _⟩ => show win0_1.index t (0 : Fin 2) * 256 + 1 * r.val = b.val; omega
  | ⟨1, _⟩ => show win0_1.index t (1 : Fin 2) * 4096 + 1 * d.val = d.val; omega

/-- An entry of the stored semantic activation's tile is the array's entry at the tile's offset. -/
theorem prevSemActTile_apply (c : Dev nD) (t : Fin cfg0.N) (r : Fin 256) (k : Fin 256) (b : Fin 2048) (hb : b.val = 256 * (t.val / 64) + r.val) (f : Fin 16384) (hf : f.val = 256 * (t.val % 64) + k.val) :
    prevSemActTile m c t (ix2 r k) = m ((c : Thread nD τ).loc main_arg2) (ix2 b f) := by
  show V m c main_arg2 (((cfg0.win 2).blk t).view.emb (ix2 r k)) = _
  rw [V_main_arg2 m c]
  refine congrArg _ (funext fun a => Fin.ext ?_)
  have e0 := (tile_index t).2.2.2.2.1
  have e1 := (tile_index t).2.2.2.2.2.1
  match a with
  | ⟨0, _⟩ => show win0_2.index t (0 : Fin 2) * 256 + 1 * r.val = b.val; omega
  | ⟨1, _⟩ => show win0_2.index t (1 : Fin 2) * 256 + 1 * k.val = f.val; omega

/-- An entry of the stored phonetic activation's tile is the array's entry at the tile's offset. -/
theorem prevPhonActTile_apply (c : Dev nD) (t : Fin cfg0.N) (r : Fin 256) (k : Fin 256) (b : Fin 2048) (hb : b.val = 256 * (t.val / 64) + r.val) (f : Fin 16384) (hf : f.val = 256 * (t.val % 64) + k.val) :
    prevPhonActTile m c t (ix2 r k) = m ((c : Thread nD τ).loc main_arg3) (ix2 b f) := by
  show V m c main_arg3 (((cfg0.win 3).blk t).view.emb (ix2 r k)) = _
  rw [V_main_arg3 m c]
  refine congrArg _ (funext fun a => Fin.ext ?_)
  have e0 := (tile_index t).2.2.2.2.2.2.1
  have e1 := (tile_index t).2.2.2.2.2.2.2.1
  match a with
  | ⟨0, _⟩ => show win0_3.index t (0 : Fin 2) * 256 + 1 * r.val = b.val; omega
  | ⟨1, _⟩ => show win0_3.index t (1 : Fin 2) * 256 + 1 * k.val = f.val; omega

/-- An entry of the stored semantic receptance's tile is the array's entry at the tile's offset. -/
theorem prevSemRecTile_apply (c : Dev nD) (t : Fin cfg0.N) (r : Fin 256) (k : Fin 256) (b : Fin 2048) (hb : b.val = 256 * (t.val / 64) + r.val) (f : Fin 16384) (hf : f.val = 256 * (t.val % 64) + k.val) :
    prevSemRecTile m c t (ix2 r k) = m ((c : Thread nD τ).loc main_arg4) (ix2 b f) := by
  show V m c main_arg4 (((cfg0.win 4).blk t).view.emb (ix2 r k)) = _
  rw [V_main_arg4 m c]
  refine congrArg _ (funext fun a => Fin.ext ?_)
  have e0 := (tile_index t).2.2.2.2.2.2.2.2.1
  have e1 := (tile_index t).2.2.2.2.2.2.2.2.2.1
  match a with
  | ⟨0, _⟩ => show win0_4.index t (0 : Fin 2) * 256 + 1 * r.val = b.val; omega
  | ⟨1, _⟩ => show win0_4.index t (1 : Fin 2) * 256 + 1 * k.val = f.val; omega

/-- An entry of the stored phonetic receptance's tile is the array's entry at the tile's offset. -/
theorem prevPhonRecTile_apply (c : Dev nD) (t : Fin cfg0.N) (r : Fin 256) (k : Fin 256) (b : Fin 2048) (hb : b.val = 256 * (t.val / 64) + r.val) (f : Fin 16384) (hf : f.val = 256 * (t.val % 64) + k.val) :
    prevPhonRecTile m c t (ix2 r k) = m ((c : Thread nD τ).loc main_arg5) (ix2 b f) := by
  show V m c main_arg5 (((cfg0.win 5).blk t).view.emb (ix2 r k)) = _
  rw [V_main_arg5 m c]
  refine congrArg _ (funext fun a => Fin.ext ?_)
  have e0 := (tile_index t).2.2.2.2.2.2.2.2.2.2.1
  have e1 := (tile_index t).2.2.2.2.2.2.2.2.2.2.2.1
  match a with
  | ⟨0, _⟩ => show win0_5.index t (0 : Fin 2) * 256 + 1 * r.val = b.val; omega
  | ⟨1, _⟩ => show win0_5.index t (1 : Fin 2) * 256 + 1 * k.val = f.val; omega

/-- An entry of the shared up-projection's column tile is the array's entry at the tile's offset. -/
theorem w1Tile_apply (c : Dev nD) (t : Fin cfg0.N) (d : Fin 4096) (k : Fin 256) (f : Fin 16384) (hf : f.val = 256 * (t.val % 64) + k.val) :
    w1Tile m c t (ix2 d k) = m ((c : Thread nD τ).loc main_arg6) (ix2 d f) := by
  show V m c main_v2 (((cfg0.win 6).blk t).view.emb (ix2 d k)) = _
  rw [V_w1Tile m c]
  refine congrArg _ (funext fun a => Fin.ext ?_)
  have e0 := (tile_index t).2.2.2.2.2.2.2.2.2.2.2.2.1
  have e1 := (tile_index t).2.2.2.2.2.2.2.2.2.2.2.2.2.1
  match a with
  | ⟨0, _⟩ => show win0_6.index t (0 : Fin 2) * 4096 + 1 * d.val = d.val; omega
  | ⟨1, _⟩ => show win0_6.index t (1 : Fin 2) * 256 + 1 * k.val = f.val; omega

/-- An entry of the semantic receptance weights' column tile is the array's entry at the tile's offset. -/
theorem wSemRecTile_apply (c : Dev nD) (t : Fin cfg0.N) (d : Fin 4096) (k : Fin 256) (f : Fin 16384) (hf : f.val = 256 * (t.val % 64) + k.val) :
    wSemRecTile m c t (ix2 d k) = m ((c : Thread nD τ).loc main_arg8) (ix2 d f) := by
  show V m c main_v4 (((cfg0.win 7).blk t).view.emb (ix2 d k)) = _
  rw [V_wSemRecTile m c]
  refine congrArg _ (funext fun a => Fin.ext ?_)
  have e0 := (tile_index t).2.2.2.2.2.2.2.2.2.2.2.2.2.2.1
  have e1 := (tile_index t).2.2.2.2.2.2.2.2.2.2.2.2.2.2.2.1
  match a with
  | ⟨0, _⟩ => show win0_7.index t (0 : Fin 2) * 4096 + 1 * d.val = d.val; omega
  | ⟨1, _⟩ => show win0_7.index t (1 : Fin 2) * 256 + 1 * k.val = f.val; omega

/-- An entry of the phonetic receptance weights' column tile is the array's entry at the tile's offset. -/
theorem wPhonRecTile_apply (c : Dev nD) (t : Fin cfg0.N) (d : Fin 4096) (k : Fin 256) (f : Fin 16384) (hf : f.val = 256 * (t.val % 64) + k.val) :
    wPhonRecTile m c t (ix2 d k) = m ((c : Thread nD τ).loc main_arg9) (ix2 d f) := by
  show V m c main_v5 (((cfg0.win 8).blk t).view.emb (ix2 d k)) = _
  rw [V_wPhonRecTile m c]
  refine congrArg _ (funext fun a => Fin.ext ?_)
  have e0 := (tile_index t).2.2.2.2.2.2.2.2.2.2.2.2.2.2.2.2.1
  have e1 := (tile_index t).2.2.2.2.2.2.2.2.2.2.2.2.2.2.2.2.2.1
  match a with
  | ⟨0, _⟩ => show win0_8.index t (0 : Fin 2) * 4096 + 1 * d.val = d.val; omega
  | ⟨1, _⟩ => show win0_8.index t (1 : Fin 2) * 256 + 1 * k.val = f.val; omega

/-- An entry of the down-projection's row tile is the array's entry at the tile's offset. -/
theorem w2Tile_apply (c : Dev nD) (t : Fin cfg0.N) (k : Fin 256) (d : Fin 4096) (f : Fin 16384) (hf : f.val = 256 * (t.val % 64) + k.val) :
    w2Tile m c t (ix2 k d) = m ((c : Thread nD τ).loc main_arg7) (ix2 f d) := by
  show V m c main_v3 (((cfg0.win 9).blk t).view.emb (ix2 k d)) = _
  rw [V_w2Tile m c]
  refine congrArg _ (funext fun a => Fin.ext ?_)
  have e0 := (tile_index t).2.2.2.2.2.2.2.2.2.2.2.2.2.2.2.2.2.2.1
  have e1 := (tile_index t).2.2.2.2.2.2.2.2.2.2.2.2.2.2.2.2.2.2.2.1
  match a with
  | ⟨0, _⟩ => show win0_9.index t (0 : Fin 2) * 256 + 1 * k.val = f.val; omega
  | ⟨1, _⟩ => show win0_9.index t (1 : Fin 2) * 4096 + 1 * d.val = d.val; omega

/-- THE TILE'S FUSED ACTIVATION is the layer's at the tile's offsets. -/
theorem tileFused_at (c : Dev nD) (t : Fin cfg0.N) (r k : Fin 256) (b : Fin 2048) (hb : b.val = 256 * (t.val / 64) + r.val)
    (f : Fin 16384) (hf : f.val = 256 * (t.val % 64) + k.val) :
    tileFused (semTile m c t) (phonTile m c t) (prevSemActTile m c t) (prevPhonActTile m c t) (prevSemRecTile m c t)
        (prevPhonRecTile m c t) (w1Tile m c t) (wSemRecTile m c t) (wPhonRecTile m c t) r k
      = fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg8)) (m ((c : Thread nD τ).loc main_arg9)) b f := by
  unfold tileFused fused proj
  simp only [fun d => semTile_apply m c t r d b hb, fun d => phonTile_apply m c t r d b hb,
    fun d => w1Tile_apply m c t d k f hf, fun d => wSemRecTile_apply m c t d k f hf, fun d => wPhonRecTile_apply m c t d k f hf,
    prevSemActTile_apply m c t r k b hb f hf, prevPhonActTile_apply m c t r k b hb f hf,
    prevSemRecTile_apply m c t r k b hb f hf, prevPhonRecTile_apply m c t r k b hb f hf]

end Cert.KernelIdeal.Acc

end
-- ==== Proof.RunSum.lean ====
/-
  The accumulator over a row tile's run of points, and the array the kernel leaves.

  Within a row tile the 64 points visit the hidden tiles in order.  The first zeroes the accumulator and every point
  adds its tile's product, so after the last one the accumulator — and the output block, which that point copies from
  it — holds, at entry `(r, d)`, the sum over the 64 hidden tiles `s` of the sum over the tile's 256 columns `k` of the
  layer's fused activation at `(256 q + r, 256 s + k)` times the down-projection's entry `(256 s + k, d)`: the layer's
  sum over all 16384 hidden indices taken block by block.  Only those last points write their block back, and their
  eight blocks tile the output array, so the array ends holding the layer's result.
-/
import proofs.«170136_j90314572300882_1_alg».proof.Proof.TileReads

noncomputable section

open scoped BigOperators
open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen Cert.SpikeLayer

variable (m : (ℓ : Loc nD τ sig) → Buf (Elt Ideal) ℓ) (ρ : Dev nD → PrngReg)

/-! ## One point's step on the accumulator -/

/-- The accumulator after point `t`, when it held `acc`. -/
def stepAt (c : Dev nD) (t : Fin cfg0.N) (acc : Vec Ideal S256x4096 .f32) : Vec Ideal S256x4096 .f32 :=
  pointStep (semTile m c t) (phonTile m c t) (prevSemActTile m c t) (prevPhonActTile m c t) (prevSemRecTile m c t) (prevPhonRecTile m c t) (w1Tile m c t) (wSemRecTile m c t) (wPhonRecTile m c t) (w2Tile m c t) acc

/-- At the first hidden tile of a row tile the accumulator restarts from the zero block, whatever it held. -/
theorem scratch_at_first (c : Dev nD) (n : ℕ) (hb : n < cfg0.N) (h0 : n % 64 = 0) (acc : Vec Ideal S256x4096 .f32) :
    Value.scAt0_0 m c n hb acc = stepAt m c ⟨n, hb⟩ zeroBlock := by
  have hN : n < 512 := lt_of_lt_of_eq hb (show cfg0.N = 512 from N_0)
  have h1 : ¬n % 64 = 63 := by omega
  unfold Value.scAt0_0
  rw [dif_pos h0, dif_neg h1]
  exact scratch_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))

/-- At every other hidden tile it is stepped from what the point before left. -/
theorem scratch_at_later (c : Dev nD) (n : ℕ) (hb : n < cfg0.N) (h0 : ¬n % 64 = 0) (acc : Vec Ideal S256x4096 .f32) :
    Value.scAt0_0 m c n hb acc = stepAt m c ⟨n, hb⟩ acc := by
  unfold Value.scAt0_0
  by_cases h1 : n % 64 = 63
  · rw [dif_neg h0, dif_pos h1]
    exact scratch_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc
  · rw [dif_neg h0, dif_neg h1]
    exact scratch_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc

/-- At a last hidden tile the output block is the accumulator as that point leaves it. -/
theorem out_at_last (c : Dev nD) (t : Fin cfg0.N) (h1 : t.val % 64 = 63) :
    (outsAt0 m c t.val t.isLt).1 = (outsAt0 m c t.val t.isLt).2 := by
  have h0 : ¬t.val % 64 = 0 := by omega
  rw [outsAt0_C m c t h0 h1]
  dsimp only
  exact (out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2).trans
    (scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2).symm

/-! ## The step at an entry, and the run's sum -/

/-- What point `n` adds to the accumulator's entry `y` (zero past the grid, where it is never used). -/
def addend (c : Dev nD) (n : ℕ) (y : S256x4096.Idx) : EReal :=
  if h : n < cfg0.N then
    ∑ k : Fin 256, tileFused (semTile m c ⟨n, h⟩) (phonTile m c ⟨n, h⟩) (prevSemActTile m c ⟨n, h⟩) (prevPhonActTile m c ⟨n, h⟩) (prevSemRecTile m c ⟨n, h⟩) (prevPhonRecTile m c ⟨n, h⟩) (w1Tile m c ⟨n, h⟩) (wSemRecTile m c ⟨n, h⟩) (wPhonRecTile m c ⟨n, h⟩) (y 0) k * w2Tile m c ⟨n, h⟩ (ix2 k (y 1))
  else 0

theorem stepAt_apply (c : Dev nD) (t : Fin cfg0.N) (acc : Vec Ideal S256x4096 .f32) (y : S256x4096.Idx) :
    stepAt m c t acc y = acc y + addend m c t.val y := by
  obtain ⟨r, d, rfl⟩ : ∃ (r : Fin 256) (d : Fin 4096), y = ix2 r d := ⟨y 0, y 1, eq_ix2 y⟩
  unfold stepAt addend
  rw [dif_pos t.isLt]
  exact pointStep_apply (semTile m c t) (phonTile m c t) (prevSemActTile m c t) (prevPhonActTile m c t) (prevSemRecTile m c t) (prevPhonRecTile m c t) (w1Tile m c t) (wSemRecTile m c t) (wPhonRecTile m c t) (w2Tile m c t) acc r d

theorem zeroBlock_apply (y : S256x4096.Idx) : (zeroBlock : Vec Ideal S256x4096 .f32) y = 0 := by
  show k0_pay2 (F := Ideal) y = 0
  unfold k0_pay2
  simp only [shapeCast_self]
  exact Ideal.ofBits_zero_f32

/-- THE RUN'S SUM: the accumulator `j` points into row tile `q`'s run is the sum of those points' addends. -/
theorem scratch_run (c : Dev nD) (q j : ℕ) (hj : j ≤ 63) (h : 64 * q + j < cfg0.N) (y : S256x4096.Idx) :
    Pipeline.accAt (fun n h => Value.scAt0_0 m c n h (VS0_0.read (Elt Ideal) VS0_0.junk)) (Value.scAt0_0 m c) (64 * q) j h y
      = 0 + ∑ s ∈ Finset.range (j + 1), addend m c (64 * q + s) y :=
  Pipeline.accAt_add_apply (fun n h => Value.scAt0_0 m c n h (VS0_0.read (Elt Ideal) VS0_0.junk)) (Value.scAt0_0 m c)
    (fun _ => (0 : EReal)) (addend m c) (64 * q) 63
    (fun hq i => by
      rw [scratch_at_first m c (64 * q) hq (Nat.mul_mod_right 64 q), stepAt_apply]
      exact congrArg (· + addend m c (64 * q) i) (zeroBlock_apply i))
    (fun n hn acc i hlt hle => by
      rw [scratch_at_later m c n hn (by omega), stepAt_apply])
    j hj h y

/-- The output block a last point holds: the row tile's 64 addends summed. -/
theorem out_sum (c : Dev nD) (t : Fin cfg0.N) (h1 : t.val % 64 = 63) (y : S256x4096.Idx) :
    (outsAt0 m c t.val t.isLt).1 y = ∑ s ∈ Finset.range 64, addend m c (64 * (t.val / 64) + s) y := by
  have hN : t.val < 512 := lt_of_lt_of_eq t.isLt (show cfg0.N = 512 from N_0)
  rw [out_at_last m c t h1, Value.soutsAt0_0_eq m c t,
    scratch_run m c (t.val / 64) (t.val % 64) (by omega) _ y, zero_add, h1]

/-! ## The array after the run -/

/-- The layer's result of the argument arrays as launched. -/
abbrev result (c : Dev nD) : Buf (Elt Ideal) ((c : Thread nD τ).loc main_v6) :=
  layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- An index of the output array is in point `t`'s block iff each coordinate is in the block's range on its axis. -/
theorem mem_outBlock (t : Fin cfg0.N) (i : S2048x4096.Idx) :
    i ∈ ((cfg0.win 10).blk t).view.set ↔ ∀ a : Fin 2, win0_10.index t a * S256x4096.size a ≤ (i a).val ∧ (i a).val < win0_10.index t a * S256x4096.size a + S256x4096.size a := by
  show i ∈ ((View.whole main_v6).slice (win0_10.rect t)).set ↔ _
  rw [View.set_slice_whole, Rect.mem_set_unit]
  exact Iff.rfl

/-- The output block of a last point, at an entry: the layer's result at the row tile's offset. -/
theorem out_block_eq (c : Dev nD) (t : Fin cfg0.N) (h1 : t.val % 64 = 63) (r : Fin 256) (d : Fin 4096)
    (b : Fin 2048) (hb : b.val = 256 * (t.val / 64) + r.val) :
    (outsAt0 m c t.val t.isLt).1 (ix2 r d) = result m c (ix2 b d) := by
  have hN : t.val < 512 := lt_of_lt_of_eq t.isLt (show cfg0.N = 512 from N_0)
  rw [out_sum m c t h1]
  show _ = ∑ f : Fin 16384, fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) b f * m ((c : Thread nD τ).loc main_arg7) (ix2 f d)
  rw [sum_by_blocks 64 256 (fun f : Fin (64 * 256) => fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) b f * m ((c : Thread nD τ).loc main_arg7) (ix2 f d))]
  refine Finset.sum_congr rfl fun s hs => ?_
  have hs' : s < 64 := Finset.mem_range.mp hs
  have hp : 64 * (t.val / 64) + s < cfg0.N := lt_of_lt_of_eq (by omega : 64 * (t.val / 64) + s < 512) (show cfg0.N = 512 from N_0).symm
  unfold addend
  rw [dif_pos hp]
  refine Finset.sum_congr rfl fun k _ => ?_
  rw [dif_pos hs']
  have hq : (64 * (t.val / 64) + s) / 64 = t.val / 64 := by omega
  have hr : (64 * (t.val / 64) + s) % 64 = s := by omega
  rw [tileFused_at m c ⟨64 * (t.val / 64) + s, hp⟩ r k b (by show _ = 256 * ((64 * (t.val / 64) + s) / 64) + r.val; rw [hq]; exact hb)
      ⟨256 * s + k.val, by omega⟩ (by show _ = 256 * ((64 * (t.val / 64) + s) % 64) + k.val; rw [hr]),
    w2Tile_apply m c ⟨64 * (t.val / 64) + s, hp⟩ k d ⟨256 * s + k.val, by omega⟩ (by show _ = 256 * ((64 * (t.val / 64) + s) % 64) + k.val; rw [hr])]

set_option maxRecDepth 131072 in
/-- WHAT A LAST POINT WRITES BACK is its block of the layer's result. -/
theorem flushed_eq (c : Dev nD) (t : Fin cfg0.N) (hf : (cfg0.win 10).flush t = true) :
    (dats m 0 c).flushed 10 t = ((cfg0.win 10).blk t).view.read (Elt Ideal) (result m c) := by
  have h1 : t.val % 64 = 63 := (flush0_10 t).mp hf
  have hN : t.val < 512 := lt_of_lt_of_eq t.isLt (show cfg0.N = 512 from N_0)
  rw [Value.flushed10]
  funext y
  have hy0 : (y 0).val < 256 := (y 0).isLt
  have hy1 : (y 1).val < 4096 := (y 1).isLt
  have e0 := (tile_index t).2.2.2.2.2.2.2.2.2.2.2.2.2.2.2.2.2.2.2.2.1
  have e1 := (tile_index t).2.2.2.2.2.2.2.2.2.2.2.2.2.2.2.2.2.2.2.2.2
  have hx : (cfg0.win 10).xinj (grid0.coords t) y = ix2 (⟨(y 0).val, hy0⟩ : Fin 256) (⟨(y 1).val, hy1⟩ : Fin 4096) :=
    funext fun a => Fin.ext (by
      match a with
      | ⟨0, _⟩ => rfl
      | ⟨1, _⟩ => rfl)
  have hemb : ((cfg0.win 10).blk t).view.emb y
      = ix2 (⟨256 * (t.val / 64) + (y 0).val, by omega⟩ : Fin 2048) (⟨(y 1).val, hy1⟩ : Fin 4096) := by
    funext a; apply Fin.ext
    match a with
    | ⟨0, _⟩ => show win0_10.index t (0 : Fin 2) * 256 + 1 * (y 0).val = 256 * (t.val / 64) + (y 0).val; omega
    | ⟨1, _⟩ => show win0_10.index t (1 : Fin 2) * 4096 + 1 * (y 1).val = (y 1).val; omega
  show (outsAt0 m c t.val t.isLt).1 ((cfg0.win 10).xinj (grid0.coords t) y) = result m c (((cfg0.win 10).blk t).view.emb y)
  rw [hx, hemb]
  exact out_block_eq m c t h1 ⟨(y 0).val, hy0⟩ ⟨(y 1).val, hy1⟩ _ rfl

/-- The last points' blocks tile the output array. -/
theorem cover (i : S2048x4096.Idx) : ∃ t : Fin cfg0.N, (cfg0.win 10).flush t = true ∧ i ∈ ((cfg0.win 10).blk t).view.set := by
  have hi0 : (i 0).val < 2048 := (i 0).isLt
  have hi1 : (i 1).val < 4096 := (i 1).isLt
  have hp : 64 * ((i 0).val / 256) + 63 < cfg0.N := lt_of_lt_of_eq (by omega : 64 * ((i 0).val / 256) + 63 < 512) (show cfg0.N = 512 from N_0).symm
  refine ⟨⟨64 * ((i 0).val / 256) + 63, hp⟩, (flush0_10 _).mpr (by show (64 * ((i 0).val / 256) + 63) % 64 = 63; omega), ?_⟩
  have e0 := (tile_index ⟨64 * ((i 0).val / 256) + 63, hp⟩).2.2.2.2.2.2.2.2.2.2.2.2.2.2.2.2.2.2.2.2.1
  have e1 := (tile_index ⟨64 * ((i 0).val / 256) + 63, hp⟩).2.2.2.2.2.2.2.2.2.2.2.2.2.2.2.2.2.2.2.2.2
  have e0' : win0_10.index ⟨64 * ((i 0).val / 256) + 63, hp⟩ (0 : Fin 2) = (i 0).val / 256 := by rw [e0]; show (64 * ((i 0).val / 256) + 63) / 64 = _; omega
  rw [mem_outBlock]
  intro a
  match a with
  | ⟨0, _⟩ => show win0_10.index ⟨64 * ((i 0).val / 256) + 63, hp⟩ (0 : Fin 2) * 256 ≤ (i 0).val ∧ (i 0).val < win0_10.index ⟨64 * ((i 0).val / 256) + 63, hp⟩ (0 : Fin 2) * 256 + 256; omega
  | ⟨1, _⟩ => show win0_10.index ⟨64 * ((i 0).val / 256) + 63, hp⟩ (1 : Fin 2) * 4096 ≤ (i 1).val ∧ (i 1).val < win0_10.index ⟨64 * ((i 0).val / 256) + 63, hp⟩ (1 : Fin 2) * 4096 + 4096; omega

/-- THE OUTPUT ARRAY after the run is the layer's result. -/
theorem final (c : Dev nD) : (dats m 0 c).arrAt 10 cfg0.N = result m c :=
  (dats m 0 c).arrAt_eq_of_cover 10 (result m c) (fun t hf => flushed_eq m c t hf) (cover)

/-- The kernel's run, read: the result array at the layer's value, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Acc

end
-- ==== Proof.RefValue.lean ====
/-
  The reference computes the layer.

  Read one operation at a time, the reference's result at an entry `(b, d)` is the sum over the hidden index `f` of
  its fused activation at `(b, f)` times the down-projection's entry `(f, d)`, and its fused activation is
  `SpikeLayer.fused`: the same comparisons, selects, products and sums as the kernel's, on the same literal words, but
  for two spellings — it writes `-1` as the negation of the literal `1` and a negated spike as a negation, where the
  kernel has the literal `-1` and a difference from the literal `0`; on the extended reals these agree
  (`neg_one_lit`, `neg_eq_zero_lit_sub`).
-/
import proofs.«170136_j90314572300882_1_alg».proof.Proof.Gen.ReferenceIdeal.Read
import proofs.«170136_j90314572300882_1_alg».proof.Proof.Spec

noncomputable section

open scoped BigOperators
open Idealize.ShloMosaic Idealize.ShloMosaic.TcCoe Idealize.ShloMosaic.ValueIdx

namespace Cert.ReferenceIdeal.RefValue

open Cert.ReferenceIdeal Cert.ReferenceIdeal.Read Cert.SpikeLayer

/-- The reference's fused activation at `(b, f)` is the layer's. -/
theorem fused_ref (x0 x1 : (⟨S2048x4096, .f32⟩ : BufTy).Contents (Elt Ideal)) (x2 x3 x4 x5 : (⟨S2048x16384, .f32⟩ : BufTy).Contents (Elt Ideal)) (x6 x8 x9 : (⟨S4096x16384, .f32⟩ : BufTy).Contents (Elt Ideal)) (b : Fin 2048) (f : Fin 16384) :
    val_main_v58 (F := Ideal) x0 x1 x2 x3 x4 x5 x6 x8 x9 (ix2 b f) = fused x0 x1 x2 x3 x4 x5 x6 x8 x9 b f := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_v10_apply, val_main_cst_1_apply, val_main_v11_apply, val_main_v12_apply, val_main_v13_apply, val_main_cst_2_apply, val_main_v14_apply, val_main_v15_apply, val_main_v16_apply, val_main_v17_apply, val_main_v18_apply, val_main_v19_apply, val_main_cst_3_apply, val_main_v20_apply, val_main_v21_apply, val_main_v22_apply, val_main_cst_4_apply, val_main_v23_apply, val_main_v24_apply, val_main_v25_apply, val_main_v26_apply, val_main_v27_apply, val_main_v28_apply, val_main_cst_5_apply, val_main_v29_apply, val_main_v30_apply, val_main_v31_apply, val_main_cst_6_apply, val_main_v32_apply, val_main_v33_apply, val_main_v34_apply, val_main_v35_apply, val_main_cst_7_apply, val_main_v36_apply, val_main_v37_apply, val_main_cst_8_apply, val_main_v38_apply, val_main_v39_apply, val_main_cst_9_apply, val_main_v40_apply, val_main_cst_10_apply, val_main_call4_v0_apply, val_main_call4_v1_apply, val_main_v41_apply, val_main_cst_11_apply, val_main_call5_v0_apply, val_main_v42_apply, val_main_cst_12_apply, val_main_v43_apply, val_main_v44_apply, val_main_cst_13_apply, val_main_v45_apply, val_main_v46_apply, val_main_cst_14_apply, val_main_v47_apply, val_main_cst_15_apply, val_main_call6_v0_apply, val_main_call6_v1_apply, val_main_v48_apply, val_main_cst_16_apply, val_main_call7_v0_apply, val_main_v49_apply, val_main_cst_17_apply, val_main_v50_apply, val_main_v51_apply, val_main_v52_apply, val_main_v53_apply, val_main_cst_18_apply, val_main_v54_apply, val_main_v55_apply, val_main_v56_apply, val_main_v57_apply, val_main_v58_apply]
  have l_v0 : ∀ k : Fin 4096, lidx_main_v0 (ix2 b f) k = ix2 b k := fun k => funext fun a => Fin.ext (by
    match a with
    | ⟨0, _⟩ => rfl
    | ⟨1, _⟩ => rfl)
  have r_v0 : ∀ k : Fin 4096, ridx_main_v0 (ix2 b f) k = ix2 k f := fun k => funext fun a => Fin.ext (by
    match a with
    | ⟨0, _⟩ => rfl
    | ⟨1, _⟩ => rfl)
  have l_v9 : ∀ k : Fin 4096, lidx_main_v9 (ix2 b f) k = ix2 b k := fun k => funext fun a => Fin.ext (by
    match a with
    | ⟨0, _⟩ => rfl
    | ⟨1, _⟩ => rfl)
  have r_v9 : ∀ k : Fin 4096, ridx_main_v9 (ix2 b f) k = ix2 k f := fun k => funext fun a => Fin.ext (by
    match a with
    | ⟨0, _⟩ => rfl
    | ⟨1, _⟩ => rfl)
  have l_v18 : ∀ k : Fin 4096, lidx_main_v18 (ix2 b f) k = ix2 b k := fun k => funext fun a => Fin.ext (by
    match a with
    | ⟨0, _⟩ => rfl
    | ⟨1, _⟩ => rfl)
  have r_v18 : ∀ k : Fin 4096, ridx_main_v18 (ix2 b f) k = ix2 k f := fun k => funext fun a => Fin.ext (by
    match a with
    | ⟨0, _⟩ => rfl
    | ⟨1, _⟩ => rfl)
  have l_v27 : ∀ k : Fin 4096, lidx_main_v27 (ix2 b f) k = ix2 b k := fun k => funext fun a => Fin.ext (by
    match a with
    | ⟨0, _⟩ => rfl
    | ⟨1, _⟩ => rfl)
  have r_v27 : ∀ k : Fin 4096, ridx_main_v27 (ix2 b f) k = ix2 k f := fun k => funext fun a => Fin.ext (by
    match a with
    | ⟨0, _⟩ => rfl
    | ⟨1, _⟩ => rfl)
  simp only [l_v0, r_v0, l_v9, r_v9, l_v18, r_v18, l_v27, r_v27]
  unfold fused fusedAt gate spike mix proj tenth
  rw [← neg_one_lit]
  simp only [← neg_eq_zero_lit_sub]
  rfl

/-- THE REFERENCE IS THE LAYER, entry by entry. -/
theorem layer_ref (x0 x1 : (⟨S2048x4096, .f32⟩ : BufTy).Contents (Elt Ideal)) (x2 x3 x4 x5 : (⟨S2048x16384, .f32⟩ : BufTy).Contents (Elt Ideal)) (x6 : (⟨S4096x16384, .f32⟩ : BufTy).Contents (Elt Ideal)) (x7 : (⟨S16384x4096, .f32⟩ : BufTy).Contents (Elt Ideal)) (x8 x9 : (⟨S4096x16384, .f32⟩ : BufTy).Contents (Elt Ideal)) :
    val_main_v59 (F := Ideal) x0 x1 x2 x3 x4 x5 x6 x7 x8 x9 = layer x0 x1 x2 x3 x4 x5 x6 x7 x8 x9 := by
  funext i
  obtain ⟨b, d, rfl⟩ : ∃ (b : Fin 2048) (d : Fin 4096), i = ix2 b d := ⟨i 0, i 1, eq_ix2 i⟩
  rw [val_main_v59_apply]
  unfold layer
  refine Finset.sum_congr rfl fun f _ => ?_
  have el : lidx_main_v59 (ix2 b d) f = ix2 b f := funext fun a => Fin.ext (by
    match a with
    | ⟨0, _⟩ => rfl
    | ⟨1, _⟩ => rfl)
  have er : ridx_main_v59 (ix2 b d) f = ix2 f d := funext fun a => Fin.ext (by
    match a with
    | ⟨0, _⟩ => rfl
    | ⟨1, _⟩ => rfl)
  rw [el, er, fused_ref]

end Cert.ReferenceIdeal.RefValue

end
-- ==== Proof.lean ====
/-
  The certificate of a fused two-stream spiking feed-forward layer against its plain reference, over the extended reals.

  THE LAYER.  Two patterns (2048 rows, model width 4096) are projected to the hidden width 16384: each through its own
  receptance weights and both through one shared up-projection.  Each of the four projections is mixed with a stored
  state (the larger of the two plus a tenth of the other); the two hidden mixes become ternary spikes (+1, -1 or 0 by
  sign), each spike is kept or negated by the sign of its stream's receptance mix, the two gated spikes are added, and
  the sum is projected back to the model width.  `Proof/Spec.lean` states this as one function `SpikeLayer.layer` of
  the ten argument arrays.

  THE REFERENCE computes exactly that, one whole-array operation after another (`Proof/RefValue.lean`).

  THE KERNEL tiles the rows by 256 and the hidden axis by 256.  For a row tile it walks the 64 hidden tiles: each point
  forms the tile's fused activation and adds its product with the matching 256 rows of the down-projection into an
  accumulator that is zeroed at the first hidden tile and copied to the output block at the last
  (`Proof/PointStep.lean`, `Proof/TileValue.lean`).  The blocks are parts of the argument arrays at the tile's
  offsets (`Proof/TileReads.lean`), so the output block ends at the sum over the 64 tiles of the sums over each
  tile's 256 hidden columns: the reference's sum over all 16384 hidden indices, taken block by block
  (`Proof/RunSum.lean`).

  THE LAW that joins the two sides is therefore only the regrouping of a finite sum (`SpikeLayer.sum_by_blocks`),
  which holds in any commutative monoid and so on the extended reals at every value: the precondition that the inputs
  are finite is never opened.  A change of float format is the identity over the extended reals, so the kernel's
  sixteen-bit operands are the arguments themselves.  The ideal pass rewrote nothing, so the idealization claim is
  trivial; the three frames are the generated ones (the reference's is its run with the result dropped).
-/
import proofs.«170136_j90314572300882_1_alg».proof.Defs
import proofs.«170136_j90314572300882_1_alg».proof.Proof.Gen.Kernel
import proofs.«170136_j90314572300882_1_alg».proof.Proof.Gen.Kernel.Skeleton
import proofs.«170136_j90314572300882_1_alg».proof.Proof.Gen.Kernel.Launch
import proofs.«170136_j90314572300882_1_alg».proof.Proof.Gen.Kernel.Points
import proofs.«170136_j90314572300882_1_alg».proof.Proof.Gen.Kernel.Frame
import proofs.«170136_j90314572300882_1_alg».proof.Proof.Gen.KernelIdeal
import proofs.«170136_j90314572300882_1_alg».proof.Proof.Gen.KernelIdeal.Skeleton
import proofs.«170136_j90314572300882_1_alg».proof.Proof.Gen.KernelIdeal.Launch
import proofs.«170136_j90314572300882_1_alg».proof.Proof.Gen.KernelIdeal.Points
import proofs.«170136_j90314572300882_1_alg».proof.Proof.Gen.KernelIdeal.Frame
import proofs.«170136_j90314572300882_1_alg».proof.Proof.Gen.ReferenceIdeal
import proofs.«170136_j90314572300882_1_alg».proof.Proof.Gen.Pre_finite_inputs
import proofs.«170136_j90314572300882_1_alg».proof.Proof.Gen.KernelIdeal.Value
import proofs.«170136_j90314572300882_1_alg».proof.Proof.Gen.ReferenceIdeal.Run
import proofs.«170136_j90314572300882_1_alg».proof.Proof.Gen.ReferenceIdeal.Read
import proofs.«170136_j90314572300882_1_alg».proof.Proof.RunSum
import proofs.«170136_j90314572300882_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's result of the arguments they agree on. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v59_eq, Cert.ReferenceIdeal.RefValue.layer_ref, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
